-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bitsLt_bf16_f32 : FTy.bits .bf16 < FTy.bits .f32
  transposes_S1024x1024_p1_0_S1024x1024 : S1024x1024.Transposes [1, 0] S1024x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x8192 : Shape := ⟨2, ![1024, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1024x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x1024_S1024x8192_1_0 : S8192x1024.Transposes [1, 0] S1024x8192
  bcast_S_S8192x8192 : S_.BroadcastsInDim S8192x8192 (![] : Fin 0 → Fin S8192x8192.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.GaussSpec.lean ====
/-
  The mathematics both programs compute, stated once over plain extended reals.

  For rows x of X and y of Y (each of 1024 entries) the result entry is a sum of five Gaussians of the squared
  distance, the distance expanded as |x|² + |y|² − 2·⟨x, y⟩:
      out = Σ over the five scales s ∈ {−4, −2, −1, −1/2, −1/4} of exp (d · s),   d = (Σ x² + Σ y²) − 2 · Σ x·y.
  One program multiplies d by the negative scale; the other negates d and divides by 1/4, 1/2, 1, 2, 4. On the
  extended reals dividing by a nonzero real c is multiplying by 1/c, and a sign moves freely between the two factors of a
  product, so the two spellings are one function of d at every extended real, the infinities included: no finiteness is
  needed anywhere.
-/
import Idealize.ShloMosaic.PureOps.Ideal
import Idealize.ShloMosaic.PureOps.Ideal.Laws
import Idealize.ShloMosaic.Lib.ValueIdx

noncomputable section

namespace Cert.GaussSpec

open Idealize.ShloMosaic Idealize.ShloMosaic.ValueIdx
open scoped BigOperators

/-! ## The float words of the ten scales, as the reals they denote -/

theorem word_neg4 : Ideal.ofBits .f32 0xC0800000#32 = ((-4 : ℝ) : EReal) := by
  simp [Ideal.ofBits, Ideal.ieee, -EReal.coe_mul]; norm_num
theorem word_neg2 : Ideal.ofBits .f32 0xC0000000#32 = ((-2 : ℝ) : EReal) := by
  simp [Ideal.ofBits, Ideal.ieee, -EReal.coe_mul]; norm_num
theorem word_neg1 : Ideal.ofBits .f32 0xBF800000#32 = ((-1 : ℝ) : EReal) := by
  simp [Ideal.ofBits, Ideal.ieee, -EReal.coe_mul]; norm_num
theorem word_neg_half : Ideal.ofBits .f32 0xBF000000#32 = ((-(1/2) : ℝ) : EReal) := by
  simp [Ideal.ofBits, Ideal.ieee, -EReal.coe_mul]; norm_num
theorem word_neg_quarter : Ideal.ofBits .f32 0xBE800000#32 = ((-(1/4) : ℝ) : EReal) := by
  simp [Ideal.ofBits, Ideal.ieee, -EReal.coe_mul]; norm_num
theorem word_quarter : Ideal.ofBits .f32 0x3E800000#32 = ((1/4 : ℝ) : EReal) := by
  simp [Ideal.ofBits, Ideal.ieee, -EReal.coe_mul]; norm_num
theorem word_half : Ideal.ofBits .f32 0x3F000000#32 = ((1/2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_four : Ideal.ofBits .f32 0x40800000#32 = ((4 : ℝ) : EReal) := by
  simp [Ideal.ofBits, Ideal.ieee, -EReal.coe_mul]; norm_num

/-! ## One entry -/

/-- The squared distance from the two squared norms `a`, `b` and the inner product `c`: (a + b) − 2·c. -/
def sqDist (a b c : EReal) : EReal := (a + b) - Ideal.ofBits .f32 0x40000000#32 * c

/-- Five Gaussians of a squared distance `d`, added left to right onto zero, each as exp of `d` times a negative scale. -/
def gaussians (d : EReal) : EReal :=
  ((((Ideal.ofBits .f32 0x00000000#32 + Ideal.exp (d * Ideal.ofBits .f32 0xC0800000#32))
      + Ideal.exp (d * Ideal.ofBits .f32 0xC0000000#32))
      + Ideal.exp (d * Ideal.ofBits .f32 0xBF800000#32))
      + Ideal.exp (d * Ideal.ofBits .f32 0xBF000000#32))
      + Ideal.exp (d * Ideal.ofBits .f32 0xBE800000#32)

/-- The same five terms as exp of the NEGATED distance divided by the positive width 1/4, 1/2, 1, 2, 4. -/
def gaussiansByDivision (d : EReal) : EReal :=
  ((((Ideal.ofBits .f32 0x00000000#32 + Ideal.exp (Ideal.div (-d) (Ideal.ofBits .f32 0x3E800000#32)))
      + Ideal.exp (Ideal.div (-d) (Ideal.ofBits .f32 0x3F000000#32)))
      + Ideal.exp (Ideal.div (-d) (Ideal.ofBits .f32 0x3F800000#32)))
      + Ideal.exp (Ideal.div (-d) (Ideal.ofBits .f32 0x40000000#32)))
      + Ideal.exp (Ideal.div (-d) (Ideal.ofBits .f32 0x40800000#32))

/-- Dividing the negated `d` by a nonzero real `w` is multiplying `d` by the real `s = −1/w`, on every extended real. -/
theorem neg_div_eq_mul (d : EReal) {w s : ℝ} (hw : w ≠ 0) (hs : -(1 / w) = s) :
    Ideal.div (-d) (w : EReal) = d * (s : EReal) := by
  rw [Ideal.div_coe hw, neg_mul, ← mul_neg, ← EReal.coe_neg, hs]

/-- The two spellings of the five Gaussians agree at every extended real. -/
theorem gaussiansByDivision_eq (d : EReal) : gaussiansByDivision d = gaussians d := by
  unfold gaussiansByDivision gaussians
  rw [word_quarter, word_half, word_one, word_two, word_four, word_neg4, word_neg2, word_neg1, word_neg_half, word_neg_quarter,
    neg_div_eq_mul d (w := 1/4) (s := -4) (by norm_num) (by norm_num),
    neg_div_eq_mul d (w := 1/2) (s := -2) (by norm_num) (by norm_num),
    neg_div_eq_mul d (w := 1) (s := -1) (by norm_num) (by norm_num),
    neg_div_eq_mul d (w := 2) (s := -(1/2)) (by norm_num) (by norm_num),
    neg_div_eq_mul d (w := 4) (s := -(1/4)) (by norm_num) (by norm_num)]

/-! ## The whole result -/

/-- The argument arrays' shape, 8192 rows of 1024 entries, and the result's, 8192 × 8192. -/
abbrev SArg : Shape := ⟨2, ![8192, 1024]⟩
abbrev SOut : Shape := ⟨2, ![8192, 8192]⟩

/-- The squared norm of row `r` of an argument array. -/
def rowSq (A : SArg.Idx → EReal) (r : Fin 8192) : EReal := ∑ k : Fin 1024, A (ix2 r k) * A (ix2 r k)

/-- The inner product of row `p` of `X` with row `q` of `Y`. -/
def cross (X Y : SArg.Idx → EReal) (p q : Fin 8192) : EReal := ∑ k : Fin 1024, X (ix2 p k) * Y (ix2 q k)

/-- Entry (p, q) of the result. -/
def entry (X Y : SArg.Idx → EReal) (p q : Fin 8192) : EReal :=
  gaussians (sqDist (rowSq X p) (rowSq Y q) (cross X Y p q))

/-- The result array: entry (i₀, i₁) at every index. -/
def result (X Y : SArg.Idx → EReal) : SOut.Idx → EReal :=
  fun i => entry X Y ⟨(i 0).val, idx2_lt0 i⟩ ⟨(i 1).val, idx2_lt1 i⟩

end Cert.GaussSpec

end
-- ==== Proof.RefEntry.lean ====
/-
  The reference computes the specification, entry by entry.

  Read at an index (i₀, i₁), the reference's squared distance is
      (0 + Σₖ X[i₀,k]²) broadcast down the row  +  (0 + Σₖ Y[i₁,k]²) broadcast along the column  −  2 · Σₖ X[i₀,k] · Yᵀ[k,i₁],
  which is `sqDist` of row i₀ of X and row i₁ of Y once the zero the host's sum starts from is dropped and the
  transposed right operand is read back as Y's row. The five exponentials then sit on that one distance in the
  "negate, divide by the width" spelling, which the specification module shows equal to "multiply by the negative scale".
-/
import proofs.«160897_j67405216743441_1_alg».proof.Proof.Gen.ReferenceIdeal.Read
import proofs.«160897_j67405216743441_1_alg».proof.Proof.GaussSpec

noncomputable section

namespace Cert.GaussSpec.Reference

open Cert.ReferenceIdeal Cert.ReferenceIdeal.Gen Cert.ReferenceIdeal.Read
open Idealize.ShloMosaic Idealize.ShloMosaic.ValueIdx Cert.GaussSpec
open scoped BigOperators

/-- Row i₀ of an argument, as the host's row sum (through its two broadcasts) indexes it. -/
theorem rowIdx_left (i : S8192x8192.Idx) (k : Fin 1024) :
    idx_main_v1 (idx_main_v4 (idx_main_v6 i)) k = ix2 (⟨(i 0).val, idx2_lt0 i⟩ : Fin 8192) k :=
  funext fun a => Fin.ext (by match a with | ⟨0, _⟩ => rfl | ⟨1, _⟩ => rfl)

/-- Row i₁ of an argument, as the host's second row sum (broadcast along the other axis) indexes it. -/
theorem rowIdx_right (i : S8192x8192.Idx) (k : Fin 1024) :
    idx_main_v3 (idx_main_v5 (idx_main_v7 i)) k = ix2 (⟨(i 1).val, idx2_lt1 i⟩ : Fin 8192) k :=
  funext fun a => Fin.ext (by match a with | ⟨0, _⟩ => rfl | ⟨1, _⟩ => rfl)

/-- The product's left factor is X at (i₀, k). -/
theorem dotIdx_left (i : S8192x8192.Idx) (k : Fin 1024) :
    lidx_main_v10 i k = ix2 (⟨(i 0).val, idx2_lt0 i⟩ : Fin 8192) k :=
  funext fun a => Fin.ext (by match a with | ⟨0, _⟩ => rfl | ⟨1, _⟩ => rfl)

/-- The product's right factor, the transpose read at (k, i₁), is Y at (i₁, k). -/
theorem dotIdx_right (i : S8192x8192.Idx) (k : Fin 1024) :
    idx_main_v9 (ridx_main_v10 i k) = ix2 (⟨(i 1).val, idx2_lt1 i⟩ : Fin 8192) k :=
  funext fun a => Fin.ext (by match a with | ⟨0, _⟩ => rfl | ⟨1, _⟩ => rfl)

/-- The reference's squared distance at (i₀, i₁) is `sqDist` of the two rows. -/
theorem dist_eq (X Y : (⟨S8192x1024, .f32⟩ : BufTy).Contents (Elt Ideal)) (i : S8192x8192.Idx) :
    val_main_v13 (F := Ideal) X Y i
      = sqDist (rowSq X ⟨(i 0).val, idx2_lt0 i⟩) (rowSq Y ⟨(i 1).val, idx2_lt1 i⟩)
          (cross X Y ⟨(i 0).val, idx2_lt0 i⟩ ⟨(i 1).val, idx2_lt1 i⟩) := by
  rw [val_main_v13_apply, val_main_v8_apply, val_main_v12_apply, val_main_v6_apply, val_main_v4_apply, val_main_v1_apply,
    val_main_v7_apply, val_main_v5_apply, val_main_v3_apply, val_main_v11_apply, val_main_cst_1_apply, val_main_v10_apply]
  simp only [val_main_v0_apply, val_main_v2_apply, val_main_v9_apply, val_main_cst_apply, val_main_cst_0_apply,
    rowIdx_left, rowIdx_right, dotIdx_left, dotIdx_right,
    Ideal.mulf_def, Ideal.addf_def, Ideal.subf_def, Ideal.ofBits_def, Ideal.ofBits_zero_f32, zero_add]
  rfl

/-- The reference's result at an index: the five Gaussians, by division, of its squared distance there. -/
theorem result_of_dist (X Y : (⟨S8192x1024, .f32⟩ : BufTy).Contents (Elt Ideal)) (i : S8192x8192.Idx) :
    val_main_v39 (F := Ideal) X Y i = gaussiansByDivision (val_main_v13 (F := Ideal) X Y i) := by
  rw [val_main_v39_apply, val_main_v34_apply, val_main_v29_apply, val_main_v24_apply, val_main_v19_apply,
    val_main_v38_apply, val_main_v33_apply, val_main_v28_apply, val_main_v23_apply, val_main_v18_apply,
    val_main_v37_apply, val_main_v32_apply, val_main_v27_apply, val_main_v22_apply, val_main_v17_apply,
    val_main_v35_apply, val_main_v30_apply, val_main_v25_apply, val_main_v20_apply, val_main_v15_apply,
    val_main_v36_apply, val_main_v31_apply, val_main_v26_apply, val_main_v21_apply, val_main_v16_apply, val_main_v14_apply,
    val_main_cst_7_apply, val_main_cst_6_apply, val_main_cst_5_apply, val_main_cst_4_apply, val_main_cst_3_apply,
    val_main_cst_2_apply]
  simp only [Ideal.addf_def, Ideal.hostUnary_exp_def, Ideal.hostDivf_def, Ideal.hostNegf_def, Ideal.negf_def, Ideal.ofBits_def]
  rfl

/-- THE REFERENCE IS THE SPECIFICATION: its result array is `result X Y`. -/
theorem reference_eq (X Y : (⟨S8192x1024, .f32⟩ : BufTy).Contents (Elt Ideal)) :
    val_main_v39 (F := Ideal) X Y = result X Y := by
  funext i
  rw [result_of_dist, dist_eq, gaussiansByDivision_eq]
  rfl

end Cert.GaussSpec.Reference

end
-- ==== Proof.BlockEntry.lean ====
/-
  One grid point of the kernel, entry by entry.

  The body loads a 1024 × 1024 block `x` of X's rows and a block `y` of Y's rows and stores one 1024 × 1024 block. Entry
  (p, q) of what it stores is the five Gaussians of
      (Σₖ x[p,k]²  +  Σₖ y[q,k]²)  −  2 · Σₖ x[p,k] · y[q,k]:
  the row sums are lane reductions kept as a column (and, for y, turned into a row) and broadcast over the block; the
  product is the matrix unit's into a zero accumulator, over the transposed y block, its operands narrowed to bf16 first,
  which changes nothing on the extended reals.
-/
import proofs.«160897_j67405216743441_1_alg».proof.Proof.Gen.KernelIdeal.Skeleton
import proofs.«160897_j67405216743441_1_alg».proof.Proof.GaussSpec
import Idealize.ShloMosaic.Lib.Pipeline.Value
import Idealize.ShloMosaic.Lib.ValueLayout
import Idealize.ShloMosaic.Lib.ValueIdx
import Idealize.ShloMosaic.PureOps.Ideal.Laws

noncomputable section

namespace Cert.GaussSpec.Block

open Cert.KernelIdeal Cert.KernelIdeal.Gen
open Idealize.ShloMosaic Idealize.ShloMosaic.ValueIdx Cert.GaussSpec
open scoped BigOperators

/-! ## The layout steps, each read at an entry -/

/-- A vector of 1024 entries recast as a column reads, at (p, 0), its entry p. -/
theorem column_of_vector {α : Type} (v : (⟨1, ![1024]⟩ : Shape).Idx → α)
    (h : (⟨1, ![1024]⟩ : Shape).ShapeCasts ⟨2, ![1024, 1]⟩) (p : Fin 1024) :
    shapeCast ⟨2, ![1024, 1]⟩ v h (ix2 p (0 : Fin 1)) = v (ix1 p) :=
  shapeCast_apply v h _ _ (by
    rw [Shape.rowMajor_val_one, Shape.rowMajor_val_two]
    show p.val = p.val * 1 + 0
    omega)

/-- A column broadcast over the block reads, at (p, q), the column's entry p. -/
theorem column_broadcast {α : Type} (v : (⟨2, ![1024, 1]⟩ : Shape).Idx → α)
    (h : (⟨2, ![1024, 1]⟩ : Shape).Broadcasts ⟨2, ![1024, 1024]⟩) (p q : Fin 1024) :
    broadcastTo ⟨2, ![1024, 1024]⟩ v h (ix2 p q) = v (ix2 p (0 : Fin 1)) := by
  refine broadcastTo_apply v h (ix2 p q) (ix2 p (0 : Fin 1)) fun ax => ?_
  match ax with
  | ⟨0, _⟩ => show p.val = if (1024 : Nat) = 1 then 0 else p.val; rw [if_neg (by decide)]
  | ⟨1, _⟩ => show (0 : Nat) = if (1 : Nat) = 1 then 0 else q.val; rw [if_pos rfl]

/-- A lane sum over a block's second axis reads, at row p, the sum of that row. -/
theorem row_sum (v : FVec Ideal (⟨2, ![1024, 1024]⟩ : Shape) .f32)
    (h : (⟨2, ![1024, 1024]⟩ : Shape).Reduces [1] ⟨1, ![1024]⟩) (hφ : FKind.Formats .f32)
    (hacc : (0x00000000#32 : BitVec 32) = 0x00000000#32) (p : Fin 1024) :
    multiReduction .add [1] ⟨1, ![1024]⟩ v 0x00000000#32 h hφ hacc (ix1 p) = ∑ k : Fin 1024, v (ix2 p k) := by
  refine (Ideal.multiReduction_add_single v 0x00000000#32 h hφ hacc (ix1 p)).trans ?_
  show ∑ k : Fin 1024, v (h.lift (ix1 p) k) = _
  refine Finset.sum_congr rfl fun k _ => congrArg v ?_
  funext a
  apply Fin.ext
  match a with
  | ⟨0, _⟩ => rfl
  | ⟨1, _⟩ => rfl

/-! ## The matrix product read at an entry -/

theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into a zero accumulator reads, at (p, q), the sum over k of left[p,k] · right[k,q]. -/
theorem product_entry (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun ax => Fin.ext (by
    match ax with
    | ⟨0, _⟩ => exact lhs_axis0 _ _
    | ⟨1, _⟩ => exact (lhs_axis1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun ax => Fin.ext (by
    match ax with
    | ⟨0, _⟩ => exact (rhs_axis0 _ _).trans hk
    | ⟨1, _⟩ => exact rhs_axis1 _ _)
  rw [el, er]

/-- With the right operand a transposed block `b`, the product's entry (p, q) pairs row p of the left with row q of `b`. -/
theorem product_entry_transposed (a b : FVec Ideal S1024x1024 .bf16) (h : S1024x1024.Transposes [1, 0] S1024x1024)
    (p q : Fin 1024) :
    matmul dot_S1024x1024_S1024x1024_S1024x1024_1_0_0_1_n_n none a (transpose S1024x1024 [1, 0] b h)
        (constant (F := Ideal) S1024x1024 .f32 0x00000000#32) (ix2 p q)
      = ∑ k : Fin 1024, a (ix2 p k) * b (ix2 q k) :=
  (product_entry a _ p q).trans (Finset.sum_congr rfl fun k _ => by rw [transpose_ix2_apply])

/-! ## The stored block, entry by entry -/

/-- An exponential of a vector reads, at an entry, the exponential of the entry. -/
theorem exp_entry {s : Shape} {φ : FTy} (v : FVec Ideal s φ) (i : s.Idx) : exp v i = Ideal.exp (v i) := rfl

/-- ENTRY (p, q) OF THE STORED BLOCK: the five Gaussians of the squared distance of row p of `x` and row q of `y`. -/
theorem stored_entry (x y : Vec Ideal S1024x1024 .f32) (p q : Fin 1024) :
    k0_pay1 (F := Ideal) x y (ix2 p q)
      = gaussians (sqDist (∑ k : Fin 1024, x (ix2 p k) * x (ix2 p k)) (∑ k : Fin 1024, y (ix2 q k) * y (ix2 q k))
          (∑ k : Fin 1024, x (ix2 p k) * y (ix2 q k))) := by
  unfold k0_pay1
  simp only [addf_apply, subf_apply, mulf_apply, exp_entry, broadcast_apply]
  rw [column_broadcast, column_of_vector, row_sum, broadcastTo_1b_ab_apply, transpose_ix2_apply, column_of_vector, row_sum,
    product_entry_transposed]
  simp only [mulf_apply, truncf_apply]
  rfl

end Cert.GaussSpec.Block

end
-- ==== Proof.KernelArray.lean ====
/-
  From the kernel's blocks to its result array.

  The grid is 8 × 8. At point (a, b) the kernel reads rows 1024·a … 1024·a+1023 of X (window 0), rows 1024·b … of Y
  (window 1), and writes block (a, b) of the 8192 × 8192 result (window 2). So entry (p, q) of the stored block is the
  specification's entry (1024·a + p, 1024·b + q): the row sums and the inner product range over the whole rows, which
  both input blocks hold in full. The 64 blocks tile the result, so the array after the run is the specification's
  `result` everywhere.
-/
import proofs.«160897_j67405216743441_1_alg».proof.Proof.Gen.KernelIdeal.Value
import proofs.«160897_j67405216743441_1_alg».proof.Proof.BlockEntry
import Idealize.ShloMosaic.Lib.Pipeline.Value

noncomputable section

namespace Cert.GaussSpec.Kernel

open Cert.KernelIdeal Cert.KernelIdeal.Gen
open Idealize.ShloMosaic Idealize.ShloMosaic.TcCoe Idealize.SL.Sem Idealize.ShloMosaic.ValueIdx Cert.GaussSpec
open Idealize.ShloMosaic.Pipeline (Dat)
open scoped BigOperators

variable (m : (ℓ : Loc nD τ sig) → Buf (Elt Ideal) ℓ) (ρ : Dev nD → PrngReg)

theorem offset_zero : (![0, 0] : Fin 2 → Nat) = fun _ => 0 := funext fun a => by fin_cases a <;> rfl

/-- The three index maps over the 64 grid points: X's block follows the output's row block, Y's block the output's
    column block, both span their array's whole second axis, and the output's block indices stay below 8. -/
theorem block_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 output blocks is some grid point's. -/
theorem every_block : ∀ (a b : Fin 8), ∃ t : Fin cfg0.N, win0_2.index t = ![a.val, b.val] :=
  (by decide +kernel : ∀ (a b : Fin 8), ∃ t : Fin grid0.N, win0_2.index t = ![a.val, b.val])

/-- A stored block against the specification: if `x` holds rows 1024·a … of `X` and `y` rows 1024·b … of `Y`, entry
    `j` of the stored block is the specification's entry at `i` = (1024·a + j₀, 1024·b + j₁). -/
theorem block_is_result (X Y : SArg.Idx → EReal) (x y : Vec Ideal S1024x1024 .f32) (a b : Nat)
    (hx : ∀ (p k : Fin 1024) (r : Fin 8192), r.val = a * 1024 + p.val → x (ix2 p k) = X (ix2 r k))
    (hy : ∀ (q k : Fin 1024) (r : Fin 8192), r.val = b * 1024 + q.val → y (ix2 q k) = Y (ix2 r k))
    (j : S1024x1024.Idx) (i : SOut.Idx) (h0 : (i 0).val = a * 1024 + (j 0).val) (h1 : (i 1).val = b * 1024 + (j 1).val) :
    k0_pay1 (F := Ideal) x y j = result X Y i := by
  obtain ⟨p, q, rfl⟩ : ∃ (p q : Fin 1024), j = ix2 p q := ⟨j 0, j 1, eq_ix2 j⟩
  rw [Block.stored_entry]
  unfold result entry rowSq cross
  have ex : ∀ k : Fin 1024, x (ix2 p k) = X (ix2 (⟨(i 0).val, idx2_lt0 i⟩ : Fin 8192) k) := fun k => hx p k _ h0
  have ey : ∀ k : Fin 1024, y (ix2 q k) = Y (ix2 (⟨(i 1).val, idx2_lt1 i⟩ : Fin 8192) k) := fun k => hy q k _ h1
  simp only [ex, ey]

/-- WHAT POINT `t` WRITES BACK is block `t` of the specification's result of the two argument arrays. -/
theorem flushed_is_result (c : Dev nD) (t : Fin cfg0.N) :
    (dats m 0 c).flushed 2 t
      = ((cfg0.win 2).blk t).view.read (Elt Ideal) (result (V m c main_arg0) (V m c main_arg1)) := by
  rw [Value.flushed2]
  unfold out0_2
  rw [View.canon_unit_zero offset_zero]
  simp only [View.ld_unit_zero (S := S1024x1024) offset_zero]
  obtain ⟨e0, e1, e2, e3, e4, e5⟩ := block_indices t
  funext j
  show k0_pay1 (F := Ideal) (iblk m c 0 t) (iblk m c 1 t) j
    = result (V m c main_arg0) (V m c main_arg1) (((cfg0.win 2).blk t).view.emb j)
  refine block_is_result (V m c main_arg0) (V m c main_arg1) (iblk m c 0 t) (iblk m c 1 t)
    (win0_2.index t (0 : Fin 2)) (win0_2.index t (1 : Fin 2)) ?_ ?_ j (((cfg0.win 2).blk t).view.emb j) ?_ ?_
  · intro p k r hr
    show V m c main_arg0 (((cfg0.win 0).blk t).view.emb (ix2 p k)) = V m c main_arg0 (ix2 r k)
    refine congrArg (V m c main_arg0) (funext fun ax => Fin.ext ?_)
    match ax with
    | ⟨0, _⟩ => show win0_0.index t (0 : Fin 2) * 1024 + 1 * p.val = r.val; omega
    | ⟨1, _⟩ => show win0_0.index t (1 : Fin 2) * 1024 + 1 * k.val = k.val; omega
  · intro q k r hr
    show V m c main_arg1 (((cfg0.win 1).blk t).view.emb (ix2 q k)) = V m c main_arg1 (ix2 r k)
    refine congrArg (V m c main_arg1) (funext fun ax => Fin.ext ?_)
    match ax with
    | ⟨0, _⟩ => show win0_1.index t (0 : Fin 2) * 1024 + 1 * q.val = r.val; omega
    | ⟨1, _⟩ => show win0_1.index t (1 : Fin 2) * 1024 + 1 * k.val = k.val; omega
  · show win0_2.index t (0 : Fin 2) * 1024 + 1 * (j 0).val = win0_2.index t (0 : Fin 2) * 1024 + (j 0).val; omega
  · show win0_2.index t (1 : Fin 2) * 1024 + 1 * (j 1).val = win0_2.index t (1 : Fin 2) * 1024 + (j 1).val; omega

/-- An index of the result is in point `t`'s block iff each coordinate is in the block's range on its axis. -/
theorem mem_block (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- THE BLOCKS TILE THE RESULT: index (i₀, i₁) lies in the block of the point whose block index is (i₀ / 1024, i₁ / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is the specification's `result` of the argument arrays as launched. -/
theorem final_array (c : Dev nD) :
    (dats m 0 c).arrAt 2 cfg0.N
      = result (m ((c : Thread nD τ).loc main_arg0)) (m ((c : Thread nD τ).loc main_arg1)) :=
  (dats m 0 c).arrAt_eq_of_cover 2 (result (V m c main_arg0) (V m c main_arg1))
    (fun t _ => flushed_is_result m c t) covered

/-- The kernel's run with the result array named: the specification's `result`, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩) (Value.run_blocks m ρ)

end Cert.GaussSpec.Kernel

end
-- ==== Proof.lean ====
/-
  A sum of five Gaussian kernels between the rows of X and the rows of Y, both 8192 × 1024:
      out[i, j] = Σ over the scales s ∈ {−4, −2, −1, −1/2, −1/4} of exp (s · d[i, j]),
      d[i, j] = |X_i|² + |Y_j|² − 2 · ⟨X_i, Y_j⟩.

  The kernel computes it block by block on an 8 × 8 grid, each point taking 1024 rows of X and 1024 rows of Y whole, so
  that the row sums and the inner products inside a block are already the whole-array ones; the reference computes it in
  one piece, negating d and dividing by the widths 1/4 … 4 where the kernel multiplies by the negative scales. On the
  extended reals these are one function (Proof/GaussSpec.lean). Proof/RefEntry.lean reads the reference at an index,
  Proof/BlockEntry.lean one stored block at an entry, Proof/KernelArray.lean tiles the 64 blocks into the result.
  The precondition (finite inputs) is never opened: every step holds at the infinities too.
-/
import proofs.«160897_j67405216743441_1_alg».proof.Defs
import proofs.«160897_j67405216743441_1_alg».proof.Proof.Gen.Kernel
import proofs.«160897_j67405216743441_1_alg».proof.Proof.Gen.Kernel.Skeleton
import proofs.«160897_j67405216743441_1_alg».proof.Proof.Gen.Kernel.Launch
import proofs.«160897_j67405216743441_1_alg».proof.Proof.Gen.Kernel.Points
import proofs.«160897_j67405216743441_1_alg».proof.Proof.Gen.Kernel.Frame
import proofs.«160897_j67405216743441_1_alg».proof.Proof.Gen.KernelIdeal
import proofs.«160897_j67405216743441_1_alg».proof.Proof.Gen.KernelIdeal.Skeleton
import proofs.«160897_j67405216743441_1_alg».proof.Proof.Gen.KernelIdeal.Launch
import proofs.«160897_j67405216743441_1_alg».proof.Proof.Gen.KernelIdeal.Points
import proofs.«160897_j67405216743441_1_alg».proof.Proof.Gen.KernelIdeal.Frame
import proofs.«160897_j67405216743441_1_alg».proof.Proof.Gen.ReferenceIdeal
import proofs.«160897_j67405216743441_1_alg».proof.Proof.Gen.Pre_finite_inputs
import proofs.«160897_j67405216743441_1_alg».proof.Proof.Gen.KernelIdeal.Value
import proofs.«160897_j67405216743441_1_alg».proof.Proof.Gen.ReferenceIdeal.Run
import proofs.«160897_j67405216743441_1_alg».proof.Proof.Gen.ReferenceIdeal.Read
import proofs.«160897_j67405216743441_1_alg».proof.Proof.RefEntry
import proofs.«160897_j67405216743441_1_alg».proof.Proof.KernelArray
import Idealize.ShloMosaic.Adequacy
import Idealize.ShloMosaic.Init

noncomputable section

namespace Cert.Proof

open Idealize.ShloMosaic Idealize.ShloMosaic.TcCoe Idealize.SL.Sem

/-- Both idealized programs, from memories that agree on X and Y, end with the specification's result array: the
    kernel's blocks tile it, and the reference's term is it index by index. -/
theorem algebraic : Cert.algebraic_KernelIdeal_ReferenceIdeal := by
  intro m ρ m' ρ' _ hagree
  refine ⟨fun c => Cert.GaussSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.GaussSpec.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.GaussSpec.Reference.reference_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
